-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S2048x4096 : Shape := ⟨2, ![2048, 4096]⟩
abbrev S2048x1 : Shape := ⟨2, ![2048, 1]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S2048x1 : S_.BroadcastsInDim S2048x1 (![] : Fin 0 → Fin S2048x1.rank)
  reducesTo_S2048x1_S_d0_1 : S2048x1.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8x2048x4096 .f32) (main_arg1 : IVec S2048x4096 32) (main_arg2 : FVec F S2048x1 .f32) (main_arg3 : IVec S2048x4096 32) (main_arg4 : FVec F S2048x1 .f32) (main_arg5 : IVec S4096 32) (main_arg6 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S2048x1 .f32 := Host.absf main_arg2
  let main_cst_0 : FVec F S_ .f32 := constant S_ .f32 0x7F800000#32
  let main_v5 : FVec F S2048x1 .f32 := broadcastInDim S2048x1 ![] bcast_S_S2048x1 main_cst_0
  let main_v6 : IVec S2048x1 1 := cmpf .olt main_v4 main_v5
  let main_c_1 : IVec S_ 1 := constantI S_ 1 1#1
  let main_v7 : IVec S_ 1 := (fun x v => Host.reduce IntOp.andi x v reducesTo_S2048x1_S_d0_1 h_S_) main_v6 main_c_1
  let main_v8 : IVec S_ 1 := andi main_v3 main_v7
  let main_v9 : FVec F S2048x1 .f32 := Host.absf main_arg4
  let main_cst_2 : FVec F S_ .f32 := constant S_ .f32 0x7F800000#32
  let main_v10 : FVec F S2048x1 .f32 := broadcastInDim S2048x1 ![] bcast_S_S2048x1 main_cst_2
  let main_v11 : IVec S2048x1 1 := cmpf .olt main_v9 main_v10
  let main_c_3 : IVec S_ 1 := constantI S_ 1 1#1
  let main_v12 : IVec S_ 1 := (fun x v => Host.reduce IntOp.andi x v reducesTo_S2048x1_S_d0_1 h_S_) main_v11 main_c_3
  let main_v13 : IVec S_ 1 := andi main_v8 main_v12
  let main_v14 : FVec F S4096 .f32 := Host.absf main_arg6
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8x2048x4096 : Shape := ⟨3, ![8, 2048, 4096]⟩
abbrev S2048x4096 : Shape := ⟨2, ![2048, 4096]⟩
abbrev S2048x1 : Shape := ⟨2, ![2048, 1]⟩
abbrev S4096 : Shape := ⟨1, ![4096]⟩
abbrev S4096x4096 : Shape := ⟨2, ![4096, 4096]⟩
abbrev S16384x4096 : Shape := ⟨2, ![16384, 4096]⟩
abbrev S1024x1024 : Shape := ⟨2, ![1024, 1024]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 32
  | .vmem => 7
  | .smem => 0
  | _ => 0

abbrev bufTy : (tb : Table) → Fin (tcTables nBuf tb) → BufTy
  | .hbm, ⟨0, _⟩ => ⟨S8x2048x4096, .f32⟩
  | .hbm, ⟨1, _⟩ => ⟨S2048x4096, .i32⟩
  | .hbm, ⟨2, _⟩ => ⟨S2048x1, .f32⟩
  | .hbm, ⟨3, _⟩ => ⟨S2048x4096, .i32⟩
  | .hbm, ⟨4, _⟩ => ⟨S2048x1, .f32⟩
  | .hbm, ⟨5, _⟩ => ⟨S4096, .i32⟩
  | .hbm, ⟨6, _⟩ => ⟨S4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S4096x4096, .f32⟩
  | .hbm, ⟨14, _⟩ => ⟨S16384x4096, .f32⟩
  | .hbm, ⟨15, _⟩ => ⟨S16384x4096, .bf16⟩
  | .hbm, ⟨16, _⟩ => ⟨S4096x4096, .f32⟩
  | .hbm, ⟨17, _⟩ => ⟨S4096x4096, .bf16⟩
  | .hbm, ⟨18, _⟩ => ⟨S16384x4096, .f32⟩
  | .hbm, ⟨19, _⟩ => ⟨S8x2048x4096, .f32⟩
  | .hbm, ⟨20, _⟩ => ⟨S_, .i32⟩
  | .hbm, ⟨21, _⟩ => ⟨S4096, .i32⟩
  | .hbm, ⟨22, _⟩ => ⟨S4096, .i1⟩
  | .hbm, ⟨23, _⟩ => ⟨S_, .i32⟩
  | .hbm, ⟨24, _⟩ => ⟨S4096, .i32⟩
  | .hbm, ⟨25, _⟩ => ⟨S4096, .i32⟩
  | .hbm, ⟨26, _⟩ => ⟨S4096, .i32⟩
  | .hbm, ⟨27, _⟩ => ⟨S4096x1, .i32⟩
  | .hbm, ⟨28, _⟩ => ⟨S8x2048x4096, .f32⟩
  | .hbm, ⟨29, _⟩ => ⟨S1x1x4096, .f32⟩
  | .hbm, ⟨30, _⟩ => ⟨S8x2048x4096, .f32⟩
  | .hbm, ⟨31, _⟩ => ⟨S8x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![16, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  bcast_S2048x1_S2048x4096_0_1 : S2048x1.BroadcastsInDim S2048x4096 (![0, 1] : Fin 2 → Fin S2048x4096.rank)
  concatenates_S2048x4096_S2048x4096_S4096x4096_d0 : Shape.Concatenates [S2048x4096, S2048x4096] S4096x4096 0
  shapeCasts_S8x2048x4096_S16384x4096 : S8x2048x4096.ShapeCasts S16384x4096
  bitsLt_bf16_f32 : FTy.bits .bf16 < FTy.bits .f32
  transposes_S4096x4096_S4096x4096_1_0 : S4096x4096.Transposes [1, 0] S4096x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S16384x4096_S8x2048x4096 : S16384x4096.ShapeCasts S8x2048x4096
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S1024x1024_S1024x1024_S1024x1024_1_0_0_1_n_n_wf : DotDims.WF S1024x1024 S1024x1024 S1024x1024 [1] [0] [0] [1] [] []
  gather_S8x2048x4096_S4096x1_S8x2048x4096_01_2_n_n_2_1_820481_wf : GatherDims.WF S8x2048x4096 S4096x1 S8x2048x4096 [0, 1] [2] [] [2] [] 1 ![8, 2048, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x4096.size a
  hwx0_0 : ∀ i : grid0.Coords, EltTy.bits .bf16 = 32 ∨ (Rect.block (s := S16384x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S16384x4096.size a
  hwx0_2 : ∀ i : grid0.Coords, EltTy.bits .f32 = 32 ∨ (Rect.block (s := S16384x4096) S1024x1024.size (cc0_transform_2 i) (hinb0_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S8x2048x4096_S4096x1_S8x2048x4096_01_2_n_n_2_1_820481 : GatherDims S8x2048x4096 S4096x1 S8x2048x4096 where
  offsetDims := [0, 1]
  collapsedSliceDims := [2]
  operandBatchingDims := []
  startIndicesBatchingDims := []
  startIndexMap := [2]
  indexVectorDim := 1
  sliceSizes := ![8, 2048, 1]
  wf := gather_S8x2048x4096_S4096x1_S8x2048x4096_01_2_n_n_2_1_820481_wf

abbrev win0_0 : Pipeline.Window sig grid0 :=
  Pipeline.Window.ofSpec (Memref.whole main_v8) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S2048x4096 : Shape := ⟨2, ![2048, 4096]⟩
abbrev S2048x1 : Shape := ⟨2, ![2048, 1]⟩
abbrev S4096 : Shape := ⟨1, ![4096]⟩
abbrev S8x2048x2048 : Shape := ⟨3, ![8, 2048, 2048]⟩
abbrev S_ : Shape := ⟨0, ![]⟩
abbrev S4096x1 : Shape := ⟨2, ![4096, 1]⟩
abbrev S1x1x4096 : Shape := ⟨3, ![1, 1, 4096]⟩

abbrev nBuf : Space → Nat
  | .hbm => 28
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S2048x4096, .i32⟩
  | .hbm, ⟨2, _⟩ => ⟨S2048x1, .f32⟩
  | .hbm, ⟨3, _⟩ => ⟨S2048x4096, .i32⟩
  | .hbm, ⟨4, _⟩ => ⟨S2048x1, .f32⟩
  | .hbm, ⟨5, _⟩ => ⟨S4096, .i32⟩
  | .hbm, ⟨6, _⟩ => ⟨S4096, .f32⟩
  | .hbm, ⟨7, _⟩ => ⟨S2048x4096, .f32⟩
  | .hbm, ⟨8, _⟩ => ⟨S2048x4096, .f32⟩
  | .hbm, ⟨9, _⟩ => ⟨S2048x4096, .f32⟩
  | .hbm, ⟨10, _⟩ => ⟨S2048x4096, .f32⟩
  | .hbm, ⟨11, _⟩ => ⟨S2048x4096, .f32⟩
  | .hbm, ⟨12, _⟩ => ⟨S2048x4096, .f32⟩
  | .hbm, ⟨13, _⟩ => ⟨S8x2048x2048, .f32⟩
  | .hbm, ⟨14, _⟩ => ⟨S8x2048x2048, .f32⟩
  | .hbm, ⟨15, _⟩ => ⟨S8x2048x4096, .f32⟩
  | .hbm, ⟨16, _⟩ => ⟨S_, .i32⟩
  | .hbm, ⟨17, _⟩ => ⟨S4096, .i32⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096x1, .i32⟩
  | .hbm, ⟨24, _⟩ => ⟨S8x2048x4096, .f32⟩
  | .hbm, ⟨25, _⟩ => ⟨S1x1x4096, .f32⟩
  | .hbm, ⟨26, _⟩ => ⟨S8x2048x4096, .f32⟩
  | .hbm, ⟨27, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩

abbrev nD : Nat := 1
abbrev τ : Topo := Topo.v7x

variable {F : FTy → Type} [FloatOps F]

class Facts₀ : Prop where
  bcast_S2048x1_S2048x4096_0_1 : S2048x1.BroadcastsInDim S2048x4096 (![0, 1] : Fin 2 → Fin S2048x4096.rank)
  concatenates_S8x2048x2048_S8x2048x2048_S8x2048x4096_d2 : Shape.Concatenates [S8x2048x2048, S8x2048x2048] S8x2048x4096 2
  bcast_S_S4096 : S_.BroadcastsInDim S4096 (![] : Fin 0 → Fin S4096.rank)
  bcast_S4096_S4096x1_0 : S4096.BroadcastsInDim S4096x1 (![0] : Fin 1 → Fin S4096x1.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S2048x4096_S8x2048x2048_2_1_01_0_n_n_wf : DotDims.WF S8x2048x4096 S2048x4096 S8x2048x2048 [2] [1] [0, 1] [0] [] []
  gather_S8x2048x4096_S4096x1_S8x2048x4096_01_2_n_n_2_1_820481_wf : GatherDims.WF S8x2048x4096 S4096x1 S8x2048x4096 [0, 1] [2] [] [2] [] 1 ![8, 2048, 1]

variable [Facts₀]

def dot_S8x2048x4096_S2048x4096_S8x2048x2048_2_1_01_0_n_n : DotDims S8x2048x4096 S2048x4096 S8x2048x2048 where
  lhsContracting := [2]
  rhsContracting := [1]
  lhsNonContracting := [0, 1]
  rhsNonContracting := [0]
  lhsBatch := []
  rhsBatch := []
  wf := dot_S8x2048x4096_S2048x4096_S8x2048x2048_2_1_01_0_n_n_wf
def gather_S8x2048x4096_S4096x1_S8x2048x4096_01_2_n_n_2_1_820481 : GatherDims S8x2048x4096 S4096x1 S8x2048x4096 where
  offsetDims := [0, 1]
  collapsedSliceDims := [2]
  operandBatchingDims := []
  startIndicesBatchingDims := []
  startIndexMap := [2]
  indexVectorDim := 1
  sliceSizes := ![8, 2048, 1]
  wf := gather_S8x2048x4096_S4096x1_S8x2048x4096_01_2_n_n_2_1_820481_wf

class Facts : Prop extends Facts₀ where

variable [Facts]
-- ==== Proof.Pieces.lean ====
/-
  What one grid point leaves behind, as values.

  The body keeps a 1024 × 1024 accumulator between points. At a point whose third coordinate is zero it first
  fills the accumulator with zeros; at every point it then replaces the accumulator by
  "accumulator + (token block · weight block)" and copies the accumulator to the output block. So after a point
  both the accumulator and the output block hold `step acc a b`, where `acc` is the zero block at a reset point and
  what the previous point left otherwise. The output block is written back only at the points ≡ 3 (mod 4), and
  there it is four steps from a reset.
-/
import proofs.«136991_j56487409877117_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A load through the whole block of what a list of stores left, the LAST of them through the whole block: that
    store's value, whatever the earlier ones were. -/
theorem readCov_last_whole {Val : EltTy → Type} {S : Shape} {e : EltTy} [∀ e, Nonempty (Val e)]
    {sg : RefSig} {κ : Kind} {sp : Space} (v : View sg κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self .., by
    show y ∈ (Rect.whole S).set; rw [Rect.set_whole]; exact Finset.mem_univ y⟩),
    View.canon_cons_unit_zero rfl, View.ld_unit_zero rfl]

/-- The zero block a reset point stores. -/
abbrev zeroBlk : Vec F S1024x1024 .f32 := k0_pay1 (F := F)

/-- One accumulation step: the accumulator plus the product of the point's token block and weight block. -/
abbrev step (acc : Vec F S1024x1024 .f32) (a b : Vec F S1024x1024 .bf16) : Vec F S1024x1024 .f32 := k0_pay2 acc a b

/-- A reset point leaves one step from zero in the accumulator, -/
theorem sout_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : cond0_0 i) (x0 x1 : Vec F S1024x1024 .bf16) :
    sout0_A_0 c i a3 h3 a4 h4 a5 h5 a6 h6 hc x0 x1 = step zeroBlk x0 x1 := by
  unfold sout0_A_0
  rw [View.read_writes_eq_canon _ _ _ (scover0_A_0 c i a3 h3 a4 h4 a5 h5 a6 h6 hc x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz]

/-- and the same in the output block (a copy of the accumulator). -/
theorem out_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : cond0_0 i) (x0 x1 : Vec F S1024x1024 .bf16) :
    out0_A_2 c i a3 h3 a4 h4 a5 h5 a6 h6 hc x0 x1 = step zeroBlk x0 x1 := by
  unfold out0_A_2
  rw [View.read_writes_eq_canon _ _ _ (cover0_A_2 c i a3 h3 a4 h4 a5 h5 a6 h6 hc x0 x1)]
  unfold kernelRun0_A
  dsimp only
  sl_unfold_words
  rw [View.canon_unit_zero hz, readCov_last_whole (S := S1024x1024) _ hz, View.readCov_unit_zero (S := S1024x1024) _ hz]
  simp only [View.readAt_eq_ld, h3.read_unread, h4.read_unread, View.ld_unit_zero (S := S1024x1024) hz]

/-- Any other point leaves one step from what the point before left, in the accumulator -/
theorem sout_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : ¬cond0_0 i) (x0 x1 : Vec F S1024x1024 .bf16) (xs : Vec F S1024x1024 .f32) :
    sout0_B_0 c i a3 h3 a4 h4 a5 h5 a6 h6 hc x0 x1 xs = step xs x0 x1 := by
  unfold sout0_B_0
  rw [View.read_writes_eq_canon _ _ _ (scover0_B_0 c i a3 h3 a4 h4 a5 h5 a6 h6 hc x0 x1 xs)]
  unfold kernelRun0_B
  dsimp only
  sl_unfold_words
  rw [View.canon_unit_zero hz]
  simp only [View.readAt_eq_ld, h3.read_unread, h4.read_unread, h6.read_unread, View.ld_unit_zero (S := S1024x1024) hz]

/-- and in the output block. -/
theorem out_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x1024 .f32) (h5 : a5.IsWhole)
    (a6 : Memref sig .tc .vmem S1024x1024 .f32) (h6 : a6.IsWhole) (hc : ¬cond0_0 i) (x0 x1 : Vec F S1024x1024 .bf16) (xs : Vec F S1024x1024 .f32) :
    out0_B_2 c i a3 h3 a4 h4 a5 h5 a6 h6 hc x0 x1 xs = step xs x0 x1 := by
  unfold out0_B_2
  rw [View.read_writes_eq_canon _ _ _ (cover0_B_2 c i a3 h3 a4 h4 a5 h5 a6 h6 hc x0 x1 xs)]
  unfold kernelRun0_B
  dsimp only
  sl_unfold_words
  rw [View.canon_unit_zero hz, readCov_last_whole (S := S1024x1024) _ hz]
  simp only [View.readAt_eq_ld, h3.read_unread, h4.read_unread, h6.read_unread, View.ld_unit_zero (S := S1024x1024) hz]

end Cert.KernelIdeal.Pieces

end
-- ==== Proof.Points.lean ====
/-
  The output block point by point. The grid's 256 points run in groups of four (the third coordinate 0, 1, 2, 3):
  the first of a group resets the accumulator, and the output block is written back after the fourth. What it then
  holds is four accumulation steps from the zero block, over the group's four pairs of input blocks.
-/
import proofs.«136991_j56487409877117_1_alg».proof.Proof.Pieces

noncomputable section

open Idealize.ShloMosaic Idealize.ShloMosaic.TcCoe Idealize.SL.Sem
open Idealize.ShloMosaic.Pipeline (Dat)

namespace Cert.KernelIdeal.Points

open Cert.KernelIdeal Cert.KernelIdeal.Gen Cert.KernelIdeal.Pieces

variable {F : FTy → Type} [FloatOps F]
variable (m : (ℓ : Loc nD τ sig) → Buf (Elt F) ℓ)

/-- The token block and the weight block point `n` is handed. -/
abbrev xblk (c : Dev nD) (n : ℕ) (h : n < cfg0.N) : Vec F S1024x1024 .bf16 := iblk m c 0 ⟨n, h⟩
abbrev wblk (c : Dev nD) (n : ℕ) (h : n < cfg0.N) : Vec F S1024x1024 .bf16 := iblk m c 1 ⟨n, h⟩

/-- One step at point `n`. -/
abbrev stepAt (c : Dev nD) (n : ℕ) (h : n < cfg0.N) (acc : Vec F S1024x1024 .f32) : Vec F S1024x1024 .f32 :=
  step acc (xblk m c n h) (wblk m c n h)

/-- After a reset point: one step from zero, in the output block and in the accumulator. -/
theorem outs_reset (c : Dev nD) (n : ℕ) (h : n < cfg0.N) (h0 : n % 4 = 0) :
    outsAt0 m c n h = (stepAt m c n h zeroBlk, stepAt m c n h zeroBlk) := by
  rw [outsAt0_A m c ⟨n, h⟩ h0, out_A, sout_A]

/-- After any other point: one step from what the point before left in the accumulator. -/
theorem outs_step (c : Dev nD) (n : ℕ) (h : n + 1 < cfg0.N) (h0 : ¬(n + 1) % 4 = 0) :
    outsAt0 m c (n + 1) h = (stepAt m c (n + 1) h (outsAt0 m c n (Nat.lt_of_succ_lt h)).2,
      stepAt m c (n + 1) h (outsAt0 m c n (Nat.lt_of_succ_lt h)).2) := by
  rw [outsAt0_B m c ⟨n + 1, h⟩ h0, out_B, sout_B]
  rfl

/-- The output block after the last point of a group that starts at `n`: four steps from zero. -/
theorem outs_group (c : Dev nD) (n : ℕ) (h : n + 3 < cfg0.N) (h0 : n % 4 = 0) :
    (outsAt0 m c (n + 3) h).1
      = stepAt m c (n + 3) h (stepAt m c (n + 2) (by omega) (stepAt m c (n + 1) (by omega) (stepAt m c n (by omega) zeroBlk))) := by
  rw [outs_step m c (n + 2) h (by omega)]
  dsimp only
  rw [outs_step m c (n + 1) (by omega) (by omega)]
  dsimp only
  rw [outs_step m c n (by omega) (by omega)]
  dsimp only
  rw [outs_reset m c n (by omega) h0]

end Cert.KernelIdeal.Points

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Payload.lean ====
/-
  One accumulation step at an entry, at the ideal values: the accumulator's entry (p, q) plus the inner product of row p
  of the token block with column q of the weight block, a sum of 1024 products of extended reals; and the zero block's
  entries are zero.
-/
import proofs.«136991_j56487409877117_1_alg».proof.Proof.Gen.KernelIdeal.Skeleton
import proofs.«136991_j56487409877117_1_alg».proof.Proof.LibPlainDot
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Payload

open Cert.KernelIdeal Cert.KernelIdeal.Gen

/-- The body's matrix product is a plain one: rows from the left operand, columns from the right, one contracted axis. -/
theorem plain : Cert.PlainDot.Plain dot_S1024x1024_S1024x1024_S1024x1024_1_0_0_1_n_n := ⟨rfl, rfl, rfl, rfl, rfl, rfl⟩

/-- Every entry of the zero block is zero. -/
theorem zero_apply (p q : Fin 1024) : k0_pay1 (F := Ideal) (ix2 p q) = 0 := by
  unfold k0_pay1
  simp only [shapeCast_self]
  show Scalar.ofBits (F := Ideal) .f32 0x00000000#32 = 0
  exact Ideal.ofBits_zero_f32

/-- One step at entry (p, q). -/
theorem step_apply (acc : Vec Ideal S1024x1024 .f32) (a b : Vec Ideal S1024x1024 .bf16) (p q : Fin 1024) :
    k0_pay2 (F := Ideal) acc a b (ix2 p q) = acc (ix2 p q) + ∑ k : Fin 1024, a (ix2 p k) * b (ix2 k q) := by
  unfold k0_pay2
  simp only [shapeCast_self]
  rw [addf_apply, Cert.PlainDot.matmul_zero_apply plain rfl rfl none a b p q]

end Cert.KernelIdeal.Payload

end
-- ==== Proof.Spec.lean ====
/-
  The mathematics of the claim, with no program in sight.

  Tokens x[b, s, ·] (8 × 2048 rows of 4096 numbers) are multiplied against two stacks of 2048 weight rows each
  (one per quantisation format, already dequantised); output channel n < 2048 is the inner product with row n
  of the first stack, channel n ≥ 2048 with row n − 2048 of the second. Stacking the two weight matrices first
  and taking one product gives the same numbers, and so does cutting the inner product's 4096 terms into four
  stretches of 1024 that are added, in order, onto zero: addition of extended reals is commutative and
  associative, so no finiteness is needed.
-/
import Idealize.ShloMosaic.Lib.ValueIdx
import Mathlib.Algebra.BigOperators.Fin

noncomputable section

namespace Cert.GroupedGemm

open Idealize.ShloMosaic Idealize.ShloMosaic.ValueIdx

/-- Tokens, [batch, position, feature]. -/
abbrev ShX : Shape := ⟨3, ![8, 2048, 4096]⟩
/-- One format's weights, [channel, feature]. -/
abbrev ShW : Shape := ⟨2, ![2048, 4096]⟩

/-- Row `n` of the stacked weights at feature `k`: the first 2048 rows are the first format's, the rest the second's. -/
def wrow (w8 w4 : ShW.Idx → EReal) (n k : Fin 4096) : EReal :=
  if h : n.val < 2048 then w8 (ix2 ⟨n.val, h⟩ k) else w4 (ix2 ⟨n.val - 2048, by have := n.isLt; omega⟩ k)

/-- The grouped product: entry (b, s, n) is the inner product of token (b, s) with stacked weight row n. -/
def Y (x : ShX.Idx → EReal) (w8 w4 : ShW.Idx → EReal) : ShX.Idx → EReal := fun i =>
  ∑ k : Fin 4096, x (ix3 (i 0) (i 1) k) * wrow w8 w4 (i 2) k

/-- The grouped product at coordinates. -/
theorem Y_apply (x : ShX.Idx → EReal) (w8 w4 : ShW.Idx → EReal) (b : Fin 8) (s : Fin 2048) (n : Fin 4096) :
    Y x w8 w4 (ix3 b s n) = ∑ k : Fin 4096, x (ix3 b s k) * wrow w8 w4 n k := rfl

/-- A channel below 2048 reads the first stack, -/
theorem wrow_lt (w8 w4 : ShW.Idx → EReal) (n k : Fin 4096) (h : n.val < 2048) :
    wrow w8 w4 n k = w8 (ix2 ⟨n.val, h⟩ k) := dif_pos h

/-- and any other the second, 2048 rows up. -/
theorem wrow_ge (w8 w4 : ShW.Idx → EReal) (n k : Fin 4096) (h : ¬n.val < 2048) :
    wrow w8 w4 n k = w4 (ix2 ⟨n.val - 2048, by have := n.isLt; omega⟩ k) := dif_neg h

/-- Feature `1024·kb + k` of stretch `kb`. -/
abbrev feat (kb : Fin 4) (k : Fin 1024) : Fin 4096 := ⟨1024 * kb.val + k.val, by have := kb.isLt; have := k.isLt; omega⟩

/-- A sum over 4096 features is the sum over the four stretches of 1024, whatever the order of the terms. -/
theorem sum_stretches (f : Fin 4096 → EReal) : ∑ i : Fin 4096, f i = ∑ kb : Fin 4, ∑ k : Fin 1024, f (feat kb k) := by
  rw [← Finset.sum_product', Finset.univ_product_univ]
  refine (Finset.sum_bij' (fun (p : Fin 4 × Fin 1024) _ => feat p.1 p.2)
    (fun (i : Fin 4096) _ => ((⟨i.val / 1024, by have := i.isLt; omega⟩ : Fin 4), (⟨i.val % 1024, Nat.mod_lt _ (by decide)⟩ : Fin 1024)))
    (fun _ _ => Finset.mem_univ _) (fun _ _ => Finset.mem_univ _) ?_ ?_ (fun _ _ => rfl)).symm
  · rintro ⟨kb, k⟩ _
    have := kb.isLt; have := k.isLt
    refine Prod.ext (Fin.ext ?_) (Fin.ext ?_)
    · show (1024 * kb.val + k.val) / 1024 = kb.val; omega
    · show (1024 * kb.val + k.val) % 1024 = k.val; omega
  · intro i _
    refine Fin.ext ?_
    show 1024 * (i.val / 1024) + i.val % 1024 = i.val
    omega

/-- The four partial sums added in order onto zero are the whole sum. -/
theorem chain_eq_sum (f : Fin 4096 → EReal) :
    ((((0 : EReal) + ∑ k : Fin 1024, f (feat 0 k)) + ∑ k : Fin 1024, f (feat 1 k)) + ∑ k : Fin 1024, f (feat 2 k))
      + ∑ k : Fin 1024, f (feat 3 k) = ∑ i : Fin 4096, f i := by
  rw [sum_stretches, Fin.sum_univ_four, zero_add]

end Cert.GroupedGemm

end
-- ==== Proof.Blocks.lean ====
/-
  Where the input blocks sit, and what the two staged arrays hold.

  Point t of the grid is (i, j, kb) = (t / 16, t / 4 mod 4, t mod 4). Its token block is rows 1024·i … of the flattened
  tokens and features 1024·kb …; its weight block is features 1024·kb … and output channels 1024·j …; its output
  block is rows 1024·i … and channels 1024·j …. The flattened tokens are the tokens with (batch, position) merged
  row-major, so row r is token (r / 2048, r mod 2048); the staged weights are the two dequantised stacks joined along
  the channel axis and transposed, so entry (feature κ, channel n) is stacked row n at feature κ. Narrowing to the
  16-bit format changes nothing at the ideal values.
-/
import proofs.«136991_j56487409877117_1_alg».proof.Proof.Gen.KernelIdeal.Frame
import proofs.«136991_j56487409877117_1_alg».proof.Proof.Spec
import Idealize.ShloMosaic.Lib.Pipeline.Value
import Idealize.ShloMosaic.Lib.ValueIdx
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

/-- The three printed index maps in closed form, decided over the grid's 256 points. -/
theorem idx_facts : ∀ t : Fin cfg0.N,
    win0_0.index t (0 : Fin 2) = t.val / 16 ∧ win0_0.index t (1 : Fin 2) = t.val % 4
    ∧ win0_1.index t (0 : Fin 2) = t.val % 4 ∧ win0_1.index t (1 : Fin 2) = t.val / 4 % 4
    ∧ win0_2.index t (0 : Fin 2) = t.val / 16 ∧ win0_2.index t (1 : Fin 2) = t.val / 4 % 4 :=
  (by decide +kernel : ∀ t : Fin grid0.N, _)

section AnyValues

variable {F : FTy → Type} [FloatOps F]
variable (m : (ℓ : Loc nD τ sig) → Buf (Elt F) ℓ)

/-- The token block of point t, entry (p, k): the flattened tokens at row 1024·(t / 16) + p, feature 1024·(t mod 4) + k. -/
theorem xblk_apply (c : Dev nD) (t : Fin cfg0.N) (p k : Fin 1024) (r : Fin 16384) (κ : Fin 4096)
    (hr : r.val = 1024 * (t.val / 16) + p.val) (hκ : κ.val = 1024 * (t.val % 4) + k.val) :
    (iblk m c 0 t : Vec F S1024x1024 .bf16) (ix2 p k) = V m c main_v8 (ix2 r κ) := by
  obtain ⟨e0, e1, -⟩ := idx_facts t
  unfold iblk
  rw [View.read_apply]
  show V m c main_v8 _ = V m c main_v8 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 1024 + 1 * k.val = κ.val; rw [e1, hκ]; omega

/-- The weight block of point t, entry (k, q): the staged weights at feature 1024·(t mod 4) + k, channel 1024·(t / 4 mod 4) + q. -/
theorem wblk_apply (c : Dev nD) (t : Fin cfg0.N) (k q : Fin 1024) (κ n : Fin 4096)
    (hκ : κ.val = 1024 * (t.val % 4) + k.val) (hn : n.val = 1024 * (t.val / 4 % 4) + q.val) :
    (iblk m c 1 t : Vec F S1024x1024 .bf16) (ix2 k q) = V m c main_v10 (ix2 κ n) := by
  obtain ⟨-, -, e2, e3, -⟩ := idx_facts t
  unfold iblk
  rw [View.read_apply]
  show V m c main_v10 _ = V m c main_v10 _
  congr 1
  funext a
  apply Fin.ext
  match a with
  | ⟨0, _⟩ => show win0_1.index t (0 : Fin 2) * 1024 + 1 * k.val = κ.val; rw [e2, hκ]; omega
  | ⟨1, _⟩ => show win0_1.index t (1 : Fin 2) * 1024 + 1 * q.val = n.val; rw [e3, hn]; omega

/-- A format's dequantised weights: the integers as floats, each row scaled by its channel's scale. -/
abbrev dequant (q : S2048x4096.Idx → Elt F .i32) (s : S2048x1.Idx → Elt F .f32) : S2048x4096.Idx → Elt F .f32 :=
  mulf (sitofp .f32 q) (broadcastInDim S2048x4096 ![0, 1] bcast_S2048x1_S2048x4096_0_1 s)

/-- The staged token array: the tokens flattened and narrowed. -/
theorem V_tokens (c : Dev nD) : (V m c main_v8 : S16384x4096.Idx → Elt F .bf16)
    = truncf .bf16 (shapeCast S16384x4096 (m ((c : Thread nD τ).loc main_arg0)) shapeCasts_S8x2048x4096_S16384x4096) bitsLt_bf16_f32 := by
  show StableHlo.after hostOps0 (fun b => m (c, b)) (Proc.devRef .tc main_v8) = _
  after_results <;> rfl

/-- The staged weight array: the two dequantised stacks joined along the channel axis, transposed, narrowed. -/
theorem V_weights (c : Dev nD) : (V m c main_v10 : S4096x4096.Idx → Elt F .bf16)
    = truncf .bf16 (transpose S4096x4096 [1, 0] (concatenate S4096x4096 0
        [⟨S2048x4096, dequant (m ((c : Thread nD τ).loc main_arg1)) (m ((c : Thread nD τ).loc main_arg2))⟩,
         ⟨S2048x4096, dequant (m ((c : Thread nD τ).loc main_arg3)) (m ((c : Thread nD τ).loc main_arg4))⟩]
        concatenates_S2048x4096_S2048x4096_S4096x4096_d0) transposes_S4096x4096_S4096x4096_1_0) bitsLt_bf16_f32 := by
  show StableHlo.after hostOps0 (fun b => m (c, b)) (Proc.devRef .tc main_v10) = _
  after_results <;> rfl

end AnyValues

/-! ## At the ideal values, entry by entry -/

/-- The flattened tokens at (row 2048·b + s, feature κ) are the tokens at (b, s, κ). -/
theorem flat_apply (x : S8x2048x4096.Idx → Ideal .f32) (r : Fin 16384) (κ : Fin 4096) (b : Fin 8) (s : Fin 2048)
    (hr : r.val = 2048 * b.val + s.val) :
    (truncf .bf16 (shapeCast S16384x4096 x shapeCasts_S8x2048x4096_S16384x4096) bitsLt_bf16_f32 : FVec Ideal S16384x4096 .bf16) (ix2 r κ)
      = x (ix3 b s κ) := by
  rw [truncf_apply]
  refine shapeCast_apply x shapeCasts_S8x2048x4096_S16384x4096 (ix2 r κ) (ix3 b s κ) ?_
  rw [Shape.rowMajor_val_three, Shape.rowMajor_val_two]
  show (b.val * 2048 + s.val) * 4096 + κ.val = r.val * 4096 + κ.val
  rw [hr]
  omega

/-- The staged weights at (feature κ, channel n) are stacked row n at feature κ. -/
theorem stacked_apply (w8 w4 : S2048x4096.Idx → Ideal .f32) (κ n : Fin 4096) :
    (truncf .bf16 (transpose S4096x4096 [1, 0] (concatenate S4096x4096 0 [⟨S2048x4096, w8⟩, ⟨S2048x4096, w4⟩]
        concatenates_S2048x4096_S2048x4096_S4096x4096_d0) transposes_S4096x4096_S4096x4096_1_0) bitsLt_bf16_f32 : FVec Ideal S4096x4096 .bf16) (ix2 κ n)
      = Cert.GroupedGemm.wrow w8 w4 n κ := by
  rw [truncf_apply]
  rw [transpose_apply [1, 0] _ transposes_S4096x4096_S4096x4096_1_0 (ix2 κ n) (ix2 n κ) (fun b => by
    match b with
    | ⟨0, _⟩ => rfl
    | ⟨1, _⟩ => rfl)]
  unfold Cert.GroupedGemm.wrow
  by_cases h : n.val < 2048
  · rw [dif_pos h]
    exact concatenate_pair_apply_left (0 : Fin 2) w8 w4 concatenates_S2048x4096_S2048x4096_S4096x4096_d0 (ix2 n κ) rfl
      (ix2 ⟨n.val, h⟩ κ) (fun b => by
        match b with
        | ⟨0, _⟩ => rfl
        | ⟨1, _⟩ => rfl)
  · rw [dif_neg h]
    exact concatenate_pair_apply_right (0 : Fin 2) w8 w4 concatenates_S2048x4096_S2048x4096_S4096x4096_d0 (ix2 n κ) rfl rfl
      (ix2 ⟨n.val - 2048, by have := n.isLt; omega⟩ κ) (fun b hb => by
        match b with
        | ⟨0, _⟩ => exact absurd rfl hb
        | ⟨1, _⟩ => rfl)
      (by show n.val - 2048 + 2048 = n.val; omega)

end Cert.KernelIdeal.Blocks

end
-- ==== Proof.Final.lean ====
/-
  The array the region leaves: the product of the two staged arrays.

  Entry (p, q) of the block written back after the fourth point of a group is
  0 + Σ_k a₀(p,k)·b₀(k,q) + Σ_k a₁(p,k)·b₁(k,q) + Σ_k a₂(p,k)·b₂(k,q) + Σ_k a₃(p,k)·b₃(k,q)
  over the group's four pairs of blocks, which are the four stretches of 1024 features of row 1024·i + p of the staged
  tokens and of column 1024·j + q of the staged weights: so it is the whole inner product over 4096 features. The 64
  groups' output blocks tile the 16384 × 4096 array, so the array ends holding the product everywhere.
-/
import proofs.«136991_j56487409877117_1_alg».proof.Proof.Points
import proofs.«136991_j56487409877117_1_alg».proof.Proof.Payload
import proofs.«136991_j56487409877117_1_alg».proof.Proof.Blocks

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.KernelIdeal.Pieces Cert.KernelIdeal.Points Cert.KernelIdeal.Blocks
open Cert.KernelIdeal.Payload Cert.GroupedGemm

/-- Four steps from the zero block, at an entry: the four inner products added in order onto zero. -/
theorem four_steps (a0 b0 a1 b1 a2 b2 a3 b3 : Vec Ideal S1024x1024 .bf16) (p q : Fin 1024) :
    k0_pay2 (F := Ideal) (k0_pay2 (k0_pay2 (k0_pay2 (k0_pay1 (F := Ideal)) a0 b0) a1 b1) a2 b2) a3 b3 (ix2 p q)
      = ((((0 : EReal) + ∑ k : Fin 1024, a0 (ix2 p k) * b0 (ix2 k q)) + ∑ k : Fin 1024, a1 (ix2 p k) * b1 (ix2 k q))
          + ∑ k : Fin 1024, a2 (ix2 p k) * b2 (ix2 k q)) + ∑ k : Fin 1024, a3 (ix2 p k) * b3 (ix2 k q) := by
  rw [step_apply, step_apply, step_apply, step_apply, zero_apply]

variable (m : (ℓ : Loc nD τ sig) → Buf (Elt Ideal) ℓ)

/-- The staged token array and the staged weight array, as the region finds them. -/
abbrev tokA (c : Dev nD) : S16384x4096.Idx → Ideal .bf16 := V m c main_v8
abbrev wgtB (c : Dev nD) : S4096x4096.Idx → Ideal .bf16 := V m c main_v10

/-- The product of the staged arrays: entry (r, n) is the inner product over all 4096 features. -/
def prodFn (c : Dev nD) : S16384x4096.Idx → Ideal .f32 := fun i =>
  ∑ κ : Fin 4096, tokA m c (ix2 (i 0) κ) * wgtB m c (ix2 κ (i 1))

/-- The same as contents of the region's result array. -/
abbrev prod (c : Dev nD) : Buf (Elt Ideal) ((c : Thread nD τ).loc main_v11) := prodFn m c

/-- The inner product over the blocks of point t is the inner product over stretch t mod 4 of the staged arrays. -/
theorem addend (c : Dev nD) (t : ℕ) (ht : t < cfg0.N) (j : Fin 4) (hj : t % 4 = j.val) (p q : Fin 1024)
    (r : Fin 16384) (n : Fin 4096) (hr : r.val = 1024 * (t / 16) + p.val) (hn : n.val = 1024 * (t / 4 % 4) + q.val) :
    ∑ k : Fin 1024, xblk m c t ht (ix2 p k) * wblk m c t ht (ix2 k q)
      = ∑ k : Fin 1024, tokA m c (ix2 r (feat j k)) * wgtB m c (ix2 (feat j k) n) :=
  Finset.sum_congr rfl fun k _ => by
    have e1 : xblk m c t ht (ix2 p k) = tokA m c (ix2 r (feat j k)) :=
      xblk_apply m c ⟨t, ht⟩ p k r (feat j k) hr (by show 1024 * j.val + k.val = 1024 * (t % 4) + k.val; rw [hj])
    have e2 : wblk m c t ht (ix2 k q) = wgtB m c (ix2 (feat j k) n) :=
      wblk_apply m c ⟨t, ht⟩ k q (feat j k) n (by show 1024 * j.val + k.val = 1024 * (t % 4) + k.val; rw [hj]) hn
    rw [e1, e2]

/-- The output block after the last point of the group starting at n0, at entry (p, q): the product's entry. -/
theorem group_apply (c : Dev nD) (n0 : ℕ) (h : n0 + 3 < cfg0.N) (h0 : n0 % 4 = 0) (p q : Fin 1024)
    (r : Fin 16384) (n : Fin 4096) (hr : r.val = 1024 * (n0 / 16) + p.val) (hn : n.val = 1024 * (n0 / 4 % 4) + q.val) :
    (outsAt0 m c (n0 + 3) h).1 (ix2 p q) = ∑ κ : Fin 4096, tokA m c (ix2 r κ) * wgtB m c (ix2 κ n) := by
  rw [outs_group m c n0 h h0]
  refine (four_steps (xblk m c n0 (by omega)) (wblk m c n0 (by omega)) (xblk m c (n0 + 1) (by omega)) (wblk m c (n0 + 1) (by omega))
    (xblk m c (n0 + 2) (by omega)) (wblk m c (n0 + 2) (by omega)) (xblk m c (n0 + 3) h) (wblk m c (n0 + 3) h) p q).trans ?_
  rw [addend m c n0 (by omega) 0 (by show n0 % 4 = 0; exact h0) p q r n hr hn,
    addend m c (n0 + 1) (by omega) 1 (by show (n0 + 1) % 4 = 1; omega) p q r n (by omega) (by omega),
    addend m c (n0 + 2) (by omega) 2 (by show (n0 + 2) % 4 = 2; omega) p q r n (by omega) (by omega),
    addend m c (n0 + 3) h 3 (by show (n0 + 3) % 4 = 3; omega) p q r n (by omega) (by omega)]
  exact chain_eq_sum (fun κ => tokA m c (ix2 r κ) * wgtB m c (ix2 κ n))

/-- What a flushing point writes back is its block of the product. -/
theorem flushed_eq (c : Dev nD) (t : Fin cfg0.N) (hf : (cfg0.win 2).flush t = true) :
    (dats m 0 c).flushed 2 t = ((cfg0.win 2).blk t).view.read (Elt Ideal) (prod m c) := by
  have h3 : t.val % 4 = 3 := (flush0_2 t).mp hf
  have hN : cfg0.N = 256 := N_0
  have ht : t.val < 256 := lt_of_lt_of_eq t.isLt hN
  obtain ⟨-, -, -, -, e4, e5⟩ := idx_facts t
  show (cfg0.win 2).cut (grid0.coords t) ((dats m 0 c).after 2 t) = _
  rw [after0_2]
  funext y
  obtain ⟨p, q, rfl⟩ : ∃ p q : Fin 1024, y = ix2 p q := ⟨y 0, y 1, eq_ix2 y⟩
  have hp := p.isLt
  have hq := q.isLt
  show (outsAt0 m c t.val t.isLt).1 (ix2 p q) = prodFn m c (((cfg0.win 2).blk t).view.emb (ix2 p q))
  have hemb : ((cfg0.win 2).blk t).view.emb (ix2 p q)
      = ix2 (⟨1024 * (t.val / 16) + p.val, by omega⟩ : Fin 16384) (⟨1024 * (t.val / 4 % 4) + q.val, by omega⟩ : Fin 4096) := by
    funext a
    apply Fin.ext
    match a with
    | ⟨0, _⟩ => show win0_2.index t (0 : Fin 2) * 1024 + 1 * p.val = 1024 * (t.val / 16) + p.val; rw [e4]; omega
    | ⟨1, _⟩ => show win0_2.index t (1 : Fin 2) * 1024 + 1 * q.val = 1024 * (t.val / 4 % 4) + q.val; rw [e5]; omega
  rw [hemb]
  have same : ∀ (u : ℕ) (hu : u < cfg0.N), u = t.val → outsAt0 m c u hu = outsAt0 m c t.val t.isLt :=
    fun u hu e => by subst e; rfl
  rw [← same (t.val - 3 + 3) (by omega) (by omega)]
  exact group_apply m c (t.val - 3) (by omega) (by omega) p q _ _
    (by show 1024 * (t.val / 16) + p.val = 1024 * ((t.val - 3) / 16) + p.val; omega)
    (by show 1024 * (t.val / 4 % 4) + q.val = 1024 * ((t.val - 3) / 4 % 4) + q.val; omega)

/-- An entry of the array lies in point t's block iff each coordinate is in the block's range. -/
theorem mem_blk (t : Fin cfg0.N) (i : S16384x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v11).slice (win0_2.rect t)).set ↔ _
  rw [View.set_slice_whole, Rect.mem_set_unit]
  exact Iff.rfl

/-- Every entry lies in the block of some flushing point: the last point of the group of its row block and column block. -/
theorem cover (i : S16384x4096.Idx) : ∃ t : Fin cfg0.N, (cfg0.win 2).flush t = true ∧ i ∈ ((cfg0.win 2).blk t).view.set := by
  have hN : cfg0.N = 256 := N_0
  have hi0 : (i 0).val < 16384 := (i 0).isLt
  have hi1 : (i 1).val < 4096 := (i 1).isLt
  let t : Fin cfg0.N := ⟨16 * ((i 0).val / 1024) + 4 * ((i 1).val / 1024) + 3, by omega⟩
  have tv : t.val = 16 * ((i 0).val / 1024) + 4 * ((i 1).val / 1024) + 3 := rfl
  obtain ⟨-, -, -, -, e4, e5⟩ := idx_facts t
  refine ⟨t, (flush0_2 t).mpr (by omega), ?_⟩
  rw [mem_blk]
  intro a
  match a with
  | ⟨0, _⟩ => show win0_2.index t (0 : Fin 2) * 1024 ≤ (i 0).val ∧ (i 0).val < win0_2.index t (0 : Fin 2) * 1024 + 1024; rw [e4]; omega
  | ⟨1, _⟩ => show win0_2.index t (1 : Fin 2) * 1024 ≤ (i 1).val ∧ (i 1).val < win0_2.index t (1 : Fin 2) * 1024 + 1024; rw [e5]; omega

/-- The region's result array after the run is the product of the staged arrays. -/
theorem final (c : Dev nD) : (dats m 0 c).arrAt 2 cfg0.N = prod m c :=
  (dats m 0 c).arrAt_eq_of_cover 2 (prod m c) (flushed_eq m c) cover

end Cert.KernelIdeal.Final

end
-- ==== Proof.Tail.lean ====
/-
  From the region's array to the program's result, and the two sides joined.

  The product of the staged arrays, read back with its rows split into (batch, position), is the grouped product of
  the tokens with the two dequantised stacks: row 2048·b + s of the flattened tokens is token (b, s), and column n of
  the staged weights is stacked row n. After the region both programs do the same thing to that array: gather the
  channels through the (sign-normalised) permutation and add the bias. So the kernel's result is that common finish
  applied to the grouped product.
-/
import proofs.«136991_j56487409877117_1_alg».proof.Proof.Final

noncomputable section

open Idealize.ShloMosaic Idealize.ShloMosaic.TcCoe Idealize.SL.Sem Idealize.ShloMosaic.ValueIdx
open Idealize.ShloMosaic.Pipeline (Dat)

namespace Cert.KernelIdeal.Tail

open Cert.KernelIdeal Cert.KernelIdeal.Gen Cert.KernelIdeal.Blocks Cert.KernelIdeal.Final Cert.GroupedGemm

/-- What both programs do after the product: a negative index is moved up by 4096, the channels are gathered through
    the indices, the bias is added along the channel axis. -/
def finish (y : S8x2048x4096.Idx → Ideal .f32) (perm : S4096.Idx → Elt Ideal .i32) (bias : S4096.Idx → Ideal .f32) :
    S8x2048x4096.Idx → Ideal .f32 :=
  addf (Host.gather gather_S8x2048x4096_S4096x1_S8x2048x4096_01_2_n_n_2_1_820481 y
      (broadcastInDim S4096x1 ![0] bcast_S4096_S4096x1_0
        (select (cmpi .slt perm (broadcastInDim S4096 ![] bcast_S_S4096 (constantI S_ 32 0#32)))
          (addi perm (broadcastInDim S4096 ![] bcast_S_S4096 (constantI S_ 32 4096#32))) perm)))
    (broadcastInDim S8x2048x4096 ![0, 1, 2] bcast_S1x1x4096_S8x2048x4096_0_1_2
      (broadcastInDim S1x1x4096 ![2] bcast_S4096_S1x1x4096_2 bias))

variable (m : (ℓ : Loc nD τ sig) → Buf (Elt Ideal) ℓ) (ρ : Dev nD → PrngReg)

/-- The grouped product of the launch contents: the tokens against the two dequantised stacks. -/
abbrev grouped (c : Dev nD) : S8x2048x4096.Idx → Ideal .f32 :=
  Y (m ((c : Thread nD τ).loc main_arg0))
    (dequant (m ((c : Thread nD τ).loc main_arg1)) (m ((c : Thread nD τ).loc main_arg2)))
    (dequant (m ((c : Thread nD τ).loc main_arg3)) (m ((c : Thread nD τ).loc main_arg4)))

/-- Row 2048·b + s of the staged tokens is token (b, s). -/
theorem tok_apply (c : Dev nD) (b : Fin 8) (s : Fin 2048) (κ : Fin 4096) (r : Fin 16384) (hr : r.val = 2048 * b.val + s.val) :
    tokA m c (ix2 r κ) = (m ((c : Thread nD τ).loc main_arg0) : S8x2048x4096.Idx → Ideal .f32) (ix3 b s κ) := by
  show (V m c main_v8 : S16384x4096.Idx → Ideal .bf16) (ix2 r κ) = _
  rw [V_tokens]
  exact flat_apply _ r κ b s hr

/-- Column n of the staged weights is stacked row n. -/
theorem wgt_apply (c : Dev nD) (κ n : Fin 4096) :
    wgtB m c (ix2 κ n) = wrow (dequant (m ((c : Thread nD τ).loc main_arg1)) (m ((c : Thread nD τ).loc main_arg2)))
      (dequant (m ((c : Thread nD τ).loc main_arg3)) (m ((c : Thread nD τ).loc main_arg4))) n κ := by
  show (V m c main_v10 : S4096x4096.Idx → Ideal .bf16) (ix2 κ n) = _
  rw [V_weights]
  exact stacked_apply _ _ κ n

/-- The region's product array with its rows split into (batch, position) is the grouped product. -/
theorem bridge (c : Dev nD) :
    shapeCast S8x2048x4096 (prodFn m c) shapeCasts_S16384x4096_S8x2048x4096 = grouped m c := by
  funext i
  obtain ⟨b, s, n, rfl⟩ : ∃ (b : Fin 8) (s : Fin 2048) (n : Fin 4096), i = ix3 b s n := ⟨i 0, i 1, i 2, eq_ix3 i⟩
  have hb := b.isLt
  have hs := s.isLt
  show _ = Y _ _ _ (ix3 b s n)
  rw [Y_apply]
  rw [shapeCast_apply (prodFn m c) shapeCasts_S16384x4096_S8x2048x4096 (ix3 b s n)
    (ix2 (⟨2048 * b.val + s.val, by omega⟩ : Fin 16384) n) (by
      rw [Shape.rowMajor_val_three, Shape.rowMajor_val_two]
      show (2048 * b.val + s.val) * 4096 + n.val = (b.val * 2048 + s.val) * 4096 + n.val
      omega)]
  show ∑ κ : Fin 4096, tokA m c (ix2 (⟨2048 * b.val + s.val, by omega⟩ : Fin 16384) κ) * wgtB m c (ix2 κ n) = _
  refine Finset.sum_congr rfl fun κ _ => ?_
  rw [tok_apply m c b s κ _ rfl, wgt_apply]

/-- The lines after the region read the region's array, the permutation and the bias; the first is the product, the
    other two are as launched. -/
theorem W_prod (c : Dev nD) :
    Pipeline.withArrays (cfgs 0).spec c (V0 m c) (fun w => (dats m 0 c).arrAt w (cfgs 0).N) (Proc.devRef .tc main_v11) = prod m c :=
  (Pipeline.withArrays_arr spec0 launch0.win.arr_inj c _ _ 2).trans (final m c)

theorem W_perm (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne _ c (V0 m c) _ main_arg5 (by decide : ∀ w, Pipeline.arrRef spec0 w ≠ main_arg5)).trans (V_main_arg5 m c)

theorem W_bias (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne _ c (V0 m c) _ main_arg6 (by decide : ∀ w, Pipeline.arrRef spec0 w ≠ main_arg6)).trans (V_main_arg6 m c)

/-- The program's result: the common finish of the grouped product. -/
theorem result_eq (c : Dev nD) :
    Pipeline.afterTail₀ cfgs (dats m) 0 (V0 m) [hostOps1] c main_v22
      = finish (grouped m c) (m ((c : Thread nD τ).loc main_arg5)) (m ((c : Thread nD τ).loc main_arg6)) := by
  unfold Pipeline.afterTail₀
  show StableHlo.after hostOps1 _ (Proc.devRef .tc main_v22) = _
  after_results
  rw [W_prod, W_perm, W_bias, ← bridge]
  rfl

/-- The run, read: the result at the finish of the grouped product, the arguments unchanged. -/
theorem run : θ_run defs (onTc (τ := τ) (main (F := Ideal))) ⟨m, fun _ => 0, ρ⟩ fun r => ∀ c : Dev nD,
      r.2.mem ((c.tc : Thread nD τ).loc main_v22)
        = finish (grouped m c) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v22 (Pipeline.mem_restRefs_of main_v22 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.Tail

end
-- ==== Proof.RefSide.lean ====
/-
  The reference, read as the grouped product. It multiplies the tokens against each format's dequantised weights
  separately (contracting the feature axis) and joins the two results along the channel axis: entry (b, s, n) is the
  inner product of token (b, s) with row n of the first stack when n < 2048, with row n − 2048 of the second
  otherwise. That is the grouped product of the specification, term for term.
-/
import proofs.«136991_j56487409877117_1_alg».proof.Proof.Gen.ReferenceIdeal.Read
import proofs.«136991_j56487409877117_1_alg».proof.Proof.Spec
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.ReferenceIdeal.RefValue

open Cert.ReferenceIdeal Cert.ReferenceIdeal.Gen Cert.ReferenceIdeal.Read

/-- The two per-format products joined along the channel axis are the grouped product. -/
theorem joined_eq (x0 : S8x2048x4096.Idx → Ideal .f32) (x1 : S2048x4096.Idx → Elt Ideal .i32) (x2 : S2048x1.Idx → Ideal .f32)
    (x3 : S2048x4096.Idx → Elt Ideal .i32) (x4 : S2048x1.Idx → Ideal .f32) :
    val_main_v8 (F := Ideal) x0 x1 x2 x3 x4
      = Cert.GroupedGemm.Y x0 (val_main_v2 (F := Ideal) x1 x2) (val_main_v5 (F := Ideal) x3 x4) := by
  funext i
  obtain ⟨b, s, n, rfl⟩ : ∃ (b : Fin 8) (s : Fin 2048) (n : Fin 4096), i = ix3 b s n := ⟨i 0, i 1, i 2, eq_ix3 i⟩
  rw [Cert.GroupedGemm.Y_apply]
  unfold val_main_v8
  by_cases h : n.val < 2048
  · rw [concatenate_pair_apply_left (2 : Fin 3) (val_main_v6 (F := Ideal) x0 x1 x2) (val_main_v7 (F := Ideal) x0 x3 x4)
      concatenates_S8x2048x2048_S8x2048x2048_S8x2048x4096_d2 (ix3 b s n) rfl
      (ix3 b s (⟨n.val, h⟩ : Fin 2048)) (fun a => by
        match a with
        | ⟨0, _⟩ => rfl
        | ⟨1, _⟩ => rfl
        | ⟨2, _⟩ => rfl)]
    rw [val_main_v6_apply]
    refine Finset.sum_congr rfl fun k _ => ?_
    have el : lidx_main_v6 (ix3 b s (⟨n.val, h⟩ : Fin 2048)) k = ix3 b s k := funext fun a => by
      match a with
      | ⟨0, _⟩ => rfl
      | ⟨1, _⟩ => rfl
      | ⟨2, _⟩ => rfl
    have er : ridx_main_v6 (ix3 b s (⟨n.val, h⟩ : Fin 2048)) k = ix2 (⟨n.val, h⟩ : Fin 2048) k := funext fun a => by
      match a with
      | ⟨0, _⟩ => rfl
      | ⟨1, _⟩ => rfl
    rw [el, er, Cert.GroupedGemm.wrow_lt _ _ n k h]
  · rw [concatenate_pair_apply_right (2 : Fin 3) (val_main_v6 (F := Ideal) x0 x1 x2) (val_main_v7 (F := Ideal) x0 x3 x4)
      concatenates_S8x2048x2048_S8x2048x2048_S8x2048x4096_d2 (ix3 b s n) rfl rfl
      (ix3 b s (⟨n.val - 2048, by have := n.isLt; omega⟩ : Fin 2048)) (fun a ha => by
        match a with
        | ⟨0, _⟩ => rfl
        | ⟨1, _⟩ => rfl
        | ⟨2, _⟩ => exact absurd rfl ha)
      (by show n.val - 2048 + 2048 = n.val; omega)]
    rw [val_main_v7_apply]
    refine Finset.sum_congr rfl fun k _ => ?_
    have el : lidx_main_v7 (ix3 b s (⟨n.val - 2048, by have := n.isLt; omega⟩ : Fin 2048)) k = ix3 b s k := funext fun a => by
      match a with
      | ⟨0, _⟩ => rfl
      | ⟨1, _⟩ => rfl
      | ⟨2, _⟩ => rfl
    have er : ridx_main_v7 (ix3 b s (⟨n.val - 2048, by have := n.isLt; omega⟩ : Fin 2048)) k
        = ix2 (⟨n.val - 2048, by have := n.isLt; omega⟩ : Fin 2048) k := funext fun a => by
      match a with
      | ⟨0, _⟩ => rfl
      | ⟨1, _⟩ => rfl
    rw [el, er, Cert.GroupedGemm.wrow_ge _ _ n k h]

end Cert.ReferenceIdeal.RefValue

end
-- ==== Proof.lean ====
/-
  A grouped, quantised linear layer: tokens x[b, s, ·] against 4096 output channels whose weights come in two formats
  (2048 rows each, integers times a per-channel scale), the channels then gathered through a permutation and a bias
  added.

  The reference multiplies the tokens against each format's dequantised weights and joins the two results along the
  channel axis. The kernel joins the two weight stacks first, transposes them, flattens the tokens to 16384 rows and
  multiplies block by block: a 16 × 4 × 4 grid of 1024 × 1024 blocks, the last axis running over four stretches of the
  4096 features, accumulated from zero in a scratch block that is copied to the output block at every step and written
  back after the fourth. Over the extended reals the accumulated value is 0 + Σ + Σ + Σ + Σ of the four stretches'
  inner products, which is the inner product over all 4096 features (addition is commutative and associative: no
  finiteness is used); entry (2048·b + s, n) of that product is the reference's entry (b, s, n); narrowing the operands
  to a 16-bit format is the identity at the ideal values; and both programs finish the same way (gather, bias).

  The frames are the generated ones (the reference's is its run with the result dropped); the idealization rewrote
  nothing, so `preserves` is trivial.
-/
import proofs.«136991_j56487409877117_1_alg».proof.Defs
import proofs.«136991_j56487409877117_1_alg».proof.Proof.Gen.Kernel
import proofs.«136991_j56487409877117_1_alg».proof.Proof.Gen.Kernel.Frame
import proofs.«136991_j56487409877117_1_alg».proof.Proof.Gen.KernelIdeal
import proofs.«136991_j56487409877117_1_alg».proof.Proof.Gen.KernelIdeal.Frame
import proofs.«136991_j56487409877117_1_alg».proof.Proof.Gen.ReferenceIdeal
import proofs.«136991_j56487409877117_1_alg».proof.Proof.Gen.ReferenceIdeal.Run
import proofs.«136991_j56487409877117_1_alg».proof.Proof.Gen.ReferenceIdeal.Read
import proofs.«136991_j56487409877117_1_alg».proof.Proof.Gen.Pre_finite_inputs
import proofs.«136991_j56487409877117_1_alg».proof.Proof.Tail
import proofs.«136991_j56487409877117_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end at the common finish of the grouped product of arguments that agree. -/
theorem algebraic : Cert.algebraic_KernelIdeal_ReferenceIdeal := by
  intro m ρ m' ρ' _ hagree
  refine ⟨fun c => Cert.KernelIdeal.Tail.finish (Cert.KernelIdeal.Tail.grouped m c)
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    Cert.KernelIdeal.Tail.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6⟩ := hagree c
  rw [e0, e1, e2, e3, e4, e5, e6]
  show Cert.KernelIdeal.Tail.finish
      (Cert.ReferenceIdeal.Read.val_main_v8 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4)))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) = _
  rw [Cert.ReferenceIdeal.RefValue.joined_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
